-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16384x128 .f32) (main_arg1 : FVec F S16384x128 .f32) (main_arg2 : FVec F S16384x16384 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S2048x2048 : Shape := ⟨2, ![2048, 2048]⟩
abbrev S2048x128 : Shape := ⟨2, ![2048, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x16384, .f32⟩
  | .hbm, ⟨3, _⟩ => ⟨S128x128, .f32⟩
  | .hbm, ⟨4, _⟩ => ⟨S16384x128, .f32⟩
  | .local _ .vmem, ⟨0, _⟩ => ⟨S2048x2048, .f32⟩
  | .local _ .vmem, ⟨1, _⟩ => ⟨S2048x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg2) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x16384, .f32⟩
  | .hbm, ⟨3, _⟩ => ⟨S128x128, .f32⟩
  | .hbm, ⟨4, _⟩ => ⟨S16384x128, .f32⟩
  | .hbm, ⟨5, _⟩ => ⟨S_, .f32⟩
  | .hbm, ⟨6, _⟩ => ⟨S16384x128, .f32⟩
  | .hbm, ⟨7, _⟩ => ⟨S16384x128, .f32⟩
  | .hbm, ⟨8, _⟩ => ⟨S_, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S_, .f32⟩
  | .hbm, ⟨17, _⟩ => ⟨S16384x128, .f32⟩
  | .hbm, ⟨18, _⟩ => ⟨S16384x128, .f32⟩
  | .hbm, ⟨19, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.CaseValues.lean ====
/-
  What one grid step leaves behind, as values. The grid is 8 row tiles by 8 reduction steps. At every step the
  accumulator tile (2048 x 128) becomes "what it held + (adjacency tile) x (feature tile)"; at the first step of a row
  tile "what it held" is the zero tile just stored; at the last step the output tile is, in addition, computed from the
  finished accumulator, the initial-feature tile and the weight matrix. Stated for any float interpretation.
-/
import proofs.«176173_j19439021981955_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- Every tile is read and written from its corner (0, 0). -/
theorem hz : (![0, 0] : Fin 2 → Nat) = fun _ => 0 := funext fun a => by fin_cases a <;> rfl

/-- A middle step (neither first nor last of its row tile): the accumulator `acc` becomes `acc + A·X` for the step's
    adjacency tile `A` and feature tile `X`. -/
theorem acc_middle (c : Dev nD) (i : grid0.Coords) (a2 : Memref sig .tc .vmem S2048x2048 .f32) (h2 : a2.IsWhole) (a3 : Memref sig .tc .vmem S2048x128 .f32) (h3 : a3.IsWhole) (a4 : Memref sig .tc .vmem S2048x128 .f32) (h4 : a4.IsWhole) (a5 : Memref sig .tc .vmem S128x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i) (x0 : Vec F S2048x2048 .f32) (x1 : Vec F S2048x128 .f32) (x2 : Vec F S2048x128 .f32) (x3 : Vec F S128x128 .f32) (xs0 : Vec F S2048x128 .f32) :
    sout0_B_0 c i a2 h2 a3 h3 a4 h4 a5 h5 a6 h6 a7 h7 hc0 hc1 x0 x1 x2 x3 xs0 = k0_pay2 x0 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h7.read_unread, View.ld_unit_zero (S := S2048x2048) hz, View.ld_unit_zero (S := S2048x128) hz]

/-- The first step of a row tile: the accumulator is set to zero and then becomes `0 + A·X`; what it held before does
    not matter. -/
theorem acc_first (c : Dev nD) (i : grid0.Coords) (a2 : Memref sig .tc .vmem S2048x2048 .f32) (h2 : a2.IsWhole) (a3 : Memref sig .tc .vmem S2048x128 .f32) (h3 : a3.IsWhole) (a4 : Memref sig .tc .vmem S2048x128 .f32) (h4 : a4.IsWhole) (a5 : Memref sig .tc .vmem S128x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i) (x0 : Vec F S2048x2048 .f32) (x1 : Vec F S2048x128 .f32) (x2 : Vec F S2048x128 .f32) (x3 : Vec F S128x128 .f32) :
    sout0_A_0 c i a2 h2 a3 h3 a4 h4 a5 h5 a6 h6 a7 h7 hc0 hc1 x0 x1 x2 x3 = k0_pay2 x0 x1 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x2048) hz, View.ld_unit_zero (S := S2048x128) hz]

/-- The last step of a row tile updates the accumulator like a middle step: `acc + A·X`. -/
theorem acc_last (c : Dev nD) (i : grid0.Coords) (a2 : Memref sig .tc .vmem S2048x2048 .f32) (h2 : a2.IsWhole) (a3 : Memref sig .tc .vmem S2048x128 .f32) (h3 : a3.IsWhole) (a4 : Memref sig .tc .vmem S2048x128 .f32) (h4 : a4.IsWhole) (a5 : Memref sig .tc .vmem S128x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i) (x0 : Vec F S2048x2048 .f32) (x1 : Vec F S2048x128 .f32) (x2 : Vec F S2048x128 .f32) (x3 : Vec F S128x128 .f32) (xs0 : Vec F S2048x128 .f32) :
    sout0_C_0 c i a2 h2 a3 h3 a4 h4 a5 h5 a6 h6 a7 h7 hc0 hc1 x0 x1 x2 x3 xs0 = k0_pay2 x0 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h7.read_unread, View.ld_unit_zero (S := S2048x2048) hz, View.ld_unit_zero (S := S2048x128) hz]

/-- The last step of a row tile also writes the output tile: the closing formula applied to the finished accumulator
    `acc + A·X`, the initial-feature tile and the weight matrix. -/
theorem out_last (c : Dev nD) (i : grid0.Coords) (a2 : Memref sig .tc .vmem S2048x2048 .f32) (h2 : a2.IsWhole) (a3 : Memref sig .tc .vmem S2048x128 .f32) (h3 : a3.IsWhole) (a4 : Memref sig .tc .vmem S2048x128 .f32) (h4 : a4.IsWhole) (a5 : Memref sig .tc .vmem S128x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i) (x0 : Vec F S2048x2048 .f32) (x1 : Vec F S2048x128 .f32) (x2 : Vec F S2048x128 .f32) (x3 : Vec F S128x128 .f32) (xs0 : Vec F S2048x128 .f32) :
    out0_C_4 c i a2 h2 a3 h3 a4 h4 a5 h5 a6 h6 a7 h7 hc0 hc1 x0 x1 x2 x3 xs0 = k0_pay3 (k0_pay2 x0 x1 xs0) x2 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread, View.ld_unit_zero (S := S2048x2048) hz, View.ld_unit_zero (S := S2048x128) hz, View.ld_unit_zero (S := S128x128) hz, View.readCov_unit_zero (S := S2048x128) _ hz]

end Cert.KernelIdeal.CaseValues

end
-- ==== Proof.PointValues.lean ====
/-
  The accumulator tile and the output tile after each grid point, in terms of that point's tiles. Point `t` of the
  64 is reduction step `t mod 8` of row tile `t / 8`. After a first step the accumulator is 0 + A·X of the step's
  tiles; after any later step it is what the previous point left plus A·X; after a last step the output tile is the
  closing formula of the finished accumulator, the initial-feature tile and the weights. Stated for any float
  interpretation.
-/
import proofs.«176173_j19439021981955_1_alg».proof.Proof.Gen.KernelIdeal.Value
import proofs.«176173_j19439021981955_1_alg».proof.Proof.CaseValues

noncomputable section

open Idealize.ShloMosaic Idealize.ShloMosaic.TcCoe Idealize.SL.Sem

namespace Cert.KernelIdeal.PointValues

open Cert.KernelIdeal Cert.KernelIdeal.Gen

variable {F : FTy → Type} [FloatOps F]
variable (m : (ℓ : Loc nD τ sig) → Buf (Elt F) ℓ)

/-- The adjacency tile of point `t`: rows of row tile `t / 8`, columns of block `t mod 8`. -/
abbrev adjTile (c : Dev nD) (t : Fin cfg0.N) : Vec F S2048x2048 .f32 := iblk m c 0 t
/-- The feature tile of point `t`: rows of block `t mod 8`. -/
abbrev featTile (c : Dev nD) (t : Fin cfg0.N) : Vec F S2048x128 .f32 := iblk m c 1 t
/-- The initial-feature tile of point `t`: rows of row tile `t / 8`. -/
abbrev initTile (c : Dev nD) (t : Fin cfg0.N) : Vec F S2048x128 .f32 := iblk m c 2 t
/-- The weight matrix, whole at every point. -/
abbrev weightTile (c : Dev nD) (t : Fin cfg0.N) : Vec F S128x128 .f32 := iblk m c 3 t

/-- The accumulator tile after point `n`. -/
abbrev accAfter (c : Dev nD) (n : ℕ) (h : n < cfg0.N) : Vec F S2048x128 .f32 := (outsAt0 m c n h).2
/-- The output tile after point `n` (meaningful at the last step of a row tile). -/
abbrev outAfter (c : Dev nD) (n : ℕ) (h : n < cfg0.N) : Vec F S2048x128 .f32 := (outsAt0 m c n h).1

/-- After the first step of a row tile the accumulator is the zero tile plus the step's product. -/
theorem acc_at_first (c : Dev nD) (t : Fin cfg0.N) (h0 : t.val % 8 = 0) :
    accAfter m c t.val t.isLt = k0_pay2 (adjTile m c t) (featTile m c t) (k0_pay1 (F := F)) := by
  have h1 : ¬t.val % 8 = 7 := by omega
  show (outsAt0 m c t.val t.isLt).2 = _
  rw [outsAt0_A m c t h0 h1]
  dsimp only
  exact CaseValues.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After any later step the accumulator is what the point before left plus the step's product. -/
theorem acc_at_later (c : Dev nD) (t : Fin cfg0.N) (h0 : ¬t.val % 8 = 0) :
    accAfter m c t.val t.isLt
      = k0_pay2 (adjTile m c t) (featTile m c t) (accAfter m c (t.val - 1) (Nat.lt_of_le_of_lt (Nat.sub_le _ _) t.isLt)) := by
  show (outsAt0 m c t.val t.isLt).2 = _
  by_cases h1 : t.val % 8 = 7
  · rw [outsAt0_C m c t h0 h1]
    dsimp only
    exact CaseValues.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact CaseValues.acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After the last step of a row tile the output tile is the closing formula of the accumulator as that step leaves it. -/
theorem out_at_last (c : Dev nD) (t : Fin cfg0.N) (h1 : t.val % 8 = 7) :
    outAfter m c t.val t.isLt = k0_pay3 (accAfter m c t.val t.isLt) (initTile m c t) (weightTile m c t) := by
  have h0 : ¬t.val % 8 = 0 := by omega
  show (outsAt0 m c t.val t.isLt).1 = k0_pay3 (outsAt0 m c t.val t.isLt).2 _ _
  rw [outsAt0_C m c t h0 h1]
  dsimp only
  exact (CaseValues.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg (fun z => k0_pay3 z (iblk m c 2 t) (iblk m c 3 t))
      (CaseValues.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

end Cert.KernelIdeal.PointValues

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Spec.lean ====
/-
  One propagation layer with an initial-residual connection, as one function of its four arrays over the extended
  reals. With A the 16384 x 16384 adjacency, X the 16384 x 128 features, X0 the initial features and W the 128 x 128
  weights, and four fixed scalars a, b, g, d:

      H = A · X,    M = a·H + b·X0,    out = g·M + d·(M · W).

  Also here: the contraction over the 16384 columns of A cut into 8 blocks of 2048 — the partial sums over the first
  blocks, which is what a running total that adds one block's product at a time holds. Addition of extended reals is
  commutative and associative, so no finiteness is needed.
-/
import Idealize.ShloMosaic.Lib.ValueIdx
import Idealize.ShloMosaic.PureOps.Ideal
import proofs.«176173_j19439021981955_1_alg».proof.Proof.LibSums

noncomputable section

namespace Cert.ResidualLayer

open Idealize.ShloMosaic Idealize.ShloMosaic.ValueIdx

abbrev SAdj : Shape := ⟨2, ![16384, 16384]⟩
abbrev SFeat : Shape := ⟨2, ![16384, 128]⟩
abbrev SWeight : Shape := ⟨2, ![128, 128]⟩

/-- The weight of the aggregated features in the residual mix (the binary value nearest to 0.9). -/
abbrev wAgg : EReal := Ideal.ofBits .f32 0x3F666666#32
/-- The weight of the initial features in the residual mix (the binary value nearest to 0.1). -/
abbrev wSkip : EReal := Ideal.ofBits .f32 0x3DCCCCCD#32
/-- The weight of the mix itself in the output. -/
abbrev wKeep : EReal := Ideal.ofBits .f32 0x3F61D8F9#32
/-- The weight of the mix times the weight matrix in the output. -/
abbrev wMix : EReal := Ideal.ofBits .f32 0x3DF1383B#32

/-- H = A · X at (p, q). -/
def agg (adj : FVec Ideal SAdj .f32) (x : FVec Ideal SFeat .f32) (p : Fin 16384) (q : Fin 128) : EReal :=
  ∑ k : Fin 16384, adj (ix2 p k) * x (ix2 k q)

/-- M = a·H + b·X0 at (p, q). -/
def mixed (adj : FVec Ideal SAdj .f32) (x x0 : FVec Ideal SFeat .f32) (p : Fin 16384) (q : Fin 128) : EReal :=
  wAgg * agg adj x p q + wSkip * x0 (ix2 p q)

/-- The layer's output: g·M + d·(M · W). -/
def layer (adj : FVec Ideal SAdj .f32) (x x0 : FVec Ideal SFeat .f32) (w : FVec Ideal SWeight .f32) :
    FVec Ideal SFeat .f32 :=
  fun i => wKeep * mixed adj x x0 (i 0) (i 1) + wMix * ∑ j : Fin 128, mixed adj x x0 (i 0) j * w (ix2 j (i 1))

theorem layer_apply (adj : FVec Ideal SAdj .f32) (x x0 : FVec Ideal SFeat .f32) (w : FVec Ideal SWeight .f32)
    (p : Fin 16384) (q : Fin 128) :
    layer adj x x0 w (ix2 p q) = wKeep * mixed adj x x0 p q + wMix * ∑ j : Fin 128, mixed adj x x0 p j * w (ix2 j q) := rfl

/-! ## The contraction, block by block -/

/-- Row `r` of row tile `i`: row `2048·i + r` of the whole array. -/
def tileRow (i : Fin 8) (r : Fin 2048) : Fin 16384 := ⟨2048 * i.val + r.val, by omega⟩

theorem tileRow_val (i : Fin 8) (r : Fin 2048) : (tileRow i r).val = 2048 * i.val + r.val := rfl

/-- Position `r` of block `j` of the contracted axis: index `2048·j + r`. -/
def blockCol (j : ℕ) (hj : j < 8) (r : Fin 2048) : Fin 16384 := ⟨2048 * j + r.val, by omega⟩

/-- The summands of H at (p, q), along the contracted axis. -/
def term (adj : FVec Ideal SAdj .f32) (x : FVec Ideal SFeat .f32) (p : Fin 16384) (q : Fin 128) :
    Fin (8 * 2048) → EReal :=
  fun k => adj (ix2 p ⟨k.val, k.isLt⟩) * x (ix2 ⟨k.val, k.isLt⟩ q)

/-- The sum of the products over the first `n` blocks of the contracted axis. -/
def partialAgg (adj : FVec Ideal SAdj .f32) (x : FVec Ideal SFeat .f32) (p : Fin 16384) (q : Fin 128)
    (n : ℕ) (hn : n ≤ 8) : EReal :=
  Cert.Sums.prefixBlocks 8 2048 (term adj x p q) n hn

/-- No block yet: zero. -/
theorem partialAgg_zero (adj : FVec Ideal SAdj .f32) (x : FVec Ideal SFeat .f32) (p : Fin 16384) (q : Fin 128) :
    partialAgg adj x p q 0 (Nat.zero_le 8) = 0 :=
  Cert.Sums.prefixBlocks_zero 8 2048 _

/-- One more block: the partial sum grows by that block's products. -/
theorem partialAgg_succ (adj : FVec Ideal SAdj .f32) (x : FVec Ideal SFeat .f32) (p : Fin 16384) (q : Fin 128)
    (n : ℕ) (hn : n < 8) :
    partialAgg adj x p q (n + 1) hn
      = partialAgg adj x p q n (Nat.le_of_lt hn)
        + ∑ r : Fin 2048, adj (ix2 p (blockCol n hn r)) * x (ix2 (blockCol n hn r) q) :=
  Cert.Sums.prefixBlocks_succ 8 2048 _ n hn

/-- All eight blocks: H at (p, q). -/
theorem partialAgg_all (adj : FVec Ideal SAdj .f32) (x : FVec Ideal SFeat .f32) (p : Fin 16384) (q : Fin 128) :
    partialAgg adj x p q 8 (Nat.le_refl 8) = agg adj x p q :=
  Cert.Sums.prefixBlocks_all 8 2048 _

end Cert.ResidualLayer

end
-- ==== Proof.Payloads.lean ====
/-
  The step's arithmetic read at an entry, over the extended reals (a change of float format is the identity there, so
  the reduced-precision operands of the two products are the operands themselves): the accumulator update is
  "acc + Σ_r A(p, r)·X(r, q)" over the 2048 positions of the step's block; the zero tile is 0; the closing formula at
  (p, q) is g·M(p, q) + d·Σ_j M(p, j)·W(j, q) with M = a·acc + b·X0 on the tile.
-/
import proofs.«176173_j19439021981955_1_alg».proof.Proof.Gen.KernelIdeal.Skeleton
import proofs.«176173_j19439021981955_1_alg».proof.Proof.LibPlainProduct
import proofs.«176173_j19439021981955_1_alg».proof.Proof.Spec
import Idealize.ShloMosaic.Lib.Pipeline.Value

noncomputable section

namespace Cert.KernelIdeal.Payloads

open Cert.KernelIdeal Cert.KernelIdeal.Gen Idealize.ShloMosaic Idealize.ShloMosaic.ValueIdx Cert.ResidualLayer

/-- The accumulating product contracts the 2048 columns of a 2048 x 2048 tile with the 2048 rows of a 2048 x 128 tile. -/
theorem dims_step : dot_S2048x2048_S2048x128_S2048x128_1_0_0_1_n_n = DotDims.plain 2048 2048 128 := rfl
/-- The closing product contracts the 128 columns of a 2048 x 128 tile with the 128 rows of the weight matrix. -/
theorem dims_close : dot_S2048x128_S128x128_S2048x128_1_0_0_1_n_n = DotDims.plain 2048 128 128 := rfl

/-- The zero tile is zero everywhere. -/
theorem zero_apply (i : S2048x128.Idx) : k0_pay1 (F := Ideal) i = 0 := by
  unfold k0_pay1
  rw [shapeCast_self]
  exact Ideal.ofBits_zero_f32

/-- The accumulator update at (p, q): what was there plus the block's products summed. -/
theorem step_apply (a : Vec Ideal S2048x2048 .f32) (xb acc : Vec Ideal S2048x128 .f32) (p : Fin 2048) (q : Fin 128) :
    k0_pay2 (F := Ideal) a xb acc (ix2 p q) = acc (ix2 p q) + ∑ r : Fin 2048, a (ix2 p r) * xb (ix2 r q) := by
  unfold k0_pay2
  rw [shapeCast_self, dims_step]
  exact congrArg (acc (ix2 p q) + ·) (Cert.PlainProduct.matmul_zero_apply none _ _ p q)

/-- The residual mix on a tile, at (p, j). -/
def mixTile (acc x0b : Vec Ideal S2048x128 .f32) (p : Fin 2048) (j : Fin 128) : EReal :=
  wAgg * acc (ix2 p j) + wSkip * x0b (ix2 p j)

/-- The closing formula at (p, q). -/
theorem close_apply (acc x0b : Vec Ideal S2048x128 .f32) (w : Vec Ideal S128x128 .f32) (p : Fin 2048) (q : Fin 128) :
    k0_pay3 (F := Ideal) acc x0b w (ix2 p q)
      = wKeep * mixTile acc x0b p q + wMix * ∑ j : Fin 128, mixTile acc x0b p j * w (ix2 j q) := by
  unfold k0_pay3
  rw [dims_close]
  exact congrArg (fun z => wKeep * mixTile acc x0b p q + wMix * z)
    (Cert.PlainProduct.matmul_zero_apply none _ _ p q)

end Cert.KernelIdeal.Payloads

end
-- ==== Proof.LayerValue.lean ====
/-
  The kernel's result array is the layer function of its four argument arrays.

  Row `p` of row tile `i` is row 2048·i + p of the arrays; at reduction step `j` the adjacency tile holds columns
  2048·j … 2048·j + 2047 of those rows and the feature tile the matching rows of X. So after step `j` of row tile `i`
  the accumulator at (p, q) is the partial sum of A(2048·i + p, k)·X(k, q) over the first j + 1 blocks of k (induction
  on the step: the first step starts from zero, each later step adds its block to what the step before left); after
  the eighth step it is H = A·X at (2048·i + p, q), and the output tile written then is the closing formula of H, the
  initial features and the weights: the layer function on rows 2048·i … 2048·i + 2047. The eight row tiles written at
  the eight last steps cover the array.
-/
import proofs.«176173_j19439021981955_1_alg».proof.Proof.Gen.KernelIdeal.Value
import proofs.«176173_j19439021981955_1_alg».proof.Proof.PointValues
import proofs.«176173_j19439021981955_1_alg».proof.Proof.Payloads
import proofs.«176173_j19439021981955_1_alg».proof.Proof.Spec

noncomputable section

open Idealize.ShloMosaic Idealize.ShloMosaic.TcCoe Idealize.SL.Sem
open Idealize.ShloMosaic.Pipeline (Dat)

namespace Cert.KernelIdeal.LayerValue

open Cert.KernelIdeal Cert.KernelIdeal.Gen Cert.KernelIdeal.PointValues Idealize.ShloMosaic.ValueIdx Cert.ResidualLayer

variable (m : (ℓ : Loc nD τ sig) → Buf (Elt Ideal) ℓ) (ρ : Dev nD → PrngReg)

/-- The four argument arrays as the kernel finds them. -/
abbrev adjArr (c : Dev nD) : FVec Ideal SAdj .f32 := V m c main_arg2
abbrev featArr (c : Dev nD) : FVec Ideal SFeat .f32 := V m c main_arg0
abbrev initArr (c : Dev nD) : FVec Ideal SFeat .f32 := V m c main_arg1
abbrev weightArr (c : Dev nD) : FVec Ideal SWeight .f32 := V m c main_arg3

/-- Where each tile of point `t` sits: the adjacency tile at block (t / 8, t mod 8), the feature tile at block row
    t mod 8, the initial-feature tile and the output tile at block row t / 8, the weights at the origin. -/
theorem tile_positions : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-! ## The tiles, read off the arrays -/

/-- The adjacency tile at step `j` of row tile `i`: entry (p, r) is A(2048·i + p, 2048·j + r). -/
theorem adjTile_apply (c : Dev nD) (t : Fin cfg0.N) (i : Fin 8) (j : ℕ) (hj : j < 8) (ht : t.val = 8 * i.val + j)
    (p r : Fin 2048) : adjTile m c t (ix2 p r) = adjArr m c (ix2 (tileRow i p) (blockCol j hj r)) := by
  obtain ⟨e0, e1, -⟩ := tile_positions t
  show iblk m c 0 t (ix2 p r) = _
  unfold iblk
  rw [View.read_apply]
  show V m c main_arg2 _ = V m c main_arg2 _
  congr 1
  funext a
  apply Fin.ext
  match a with
  | ⟨0, _⟩ => show win0_0.index t (0 : Fin 2) * 2048 + 1 * p.val = 2048 * i.val + p.val; rw [e0]; omega
  | ⟨1, _⟩ => show win0_0.index t (1 : Fin 2) * 2048 + 1 * r.val = 2048 * j + r.val; rw [e1]; omega

/-- The feature tile at step `j`: entry (r, q) is X(2048·j + r, q). -/
theorem featTile_apply (c : Dev nD) (t : Fin cfg0.N) (i : Fin 8) (j : ℕ) (hj : j < 8) (ht : t.val = 8 * i.val + j)
    (r : Fin 2048) (q : Fin 128) : featTile m c t (ix2 r q) = featArr m c (ix2 (blockCol j hj r) q) := by
  obtain ⟨-, -, e2, e3, -⟩ := tile_positions t
  show iblk m c 1 t (ix2 r q) = _
  unfold iblk
  rw [View.read_apply]
  show V m c main_arg0 _ = V m c main_arg0 _
  congr 1
  funext a
  apply Fin.ext
  match a with
  | ⟨0, _⟩ => show win0_1.index t (0 : Fin 2) * 2048 + 1 * r.val = 2048 * j + r.val; rw [e2]; omega
  | ⟨1, _⟩ => show win0_1.index t (1 : Fin 2) * 128 + 1 * q.val = q.val; rw [e3]; omega

/-- The initial-feature tile of row tile `i`: entry (p, q) is X0(2048·i + p, q). -/
theorem initTile_apply (c : Dev nD) (t : Fin cfg0.N) (i : Fin 8) (j : ℕ) (hj : j < 8) (ht : t.val = 8 * i.val + j)
    (p : Fin 2048) (q : Fin 128) : initTile m c t (ix2 p q) = initArr m c (ix2 (tileRow i p) q) := by
  obtain ⟨-, -, -, -, e4, e5, -⟩ := tile_positions t
  show iblk m c 2 t (ix2 p q) = _
  unfold iblk
  rw [View.read_apply]
  show V m c main_arg1 _ = V m c main_arg1 _
  congr 1
  funext a
  apply Fin.ext
  match a with
  | ⟨0, _⟩ => show win0_2.index t (0 : Fin 2) * 2048 + 1 * p.val = 2048 * i.val + p.val; rw [e4]; omega
  | ⟨1, _⟩ => show win0_2.index t (1 : Fin 2) * 128 + 1 * q.val = q.val; rw [e5]; omega

/-- The weight tile is the weight matrix. -/
theorem weightTile_apply (c : Dev nD) (t : Fin cfg0.N) (j q : Fin 128) :
    weightTile m c t (ix2 j q) = weightArr m c (ix2 j q) := by
  obtain ⟨-, -, -, -, -, -, e6, e7, -⟩ := tile_positions t
  show iblk m c 3 t (ix2 j q) = _
  unfold iblk
  rw [View.read_apply]
  show V m c main_arg3 _ = V m c main_arg3 _
  congr 1
  funext a
  apply Fin.ext
  match a with
  | ⟨0, _⟩ => show win0_3.index t (0 : Fin 2) * 128 + 1 * j.val = j.val; rw [e6]; omega
  | ⟨1, _⟩ => show win0_3.index t (1 : Fin 2) * 128 + 1 * q.val = q.val; rw [e7]; omega

/-! ## The accumulator: a partial sum of H -/

/-- The products of step `j` of row tile `i` at (p, q) are block `j`'s summands of H at (2048·i + p, q). -/
theorem step_products (c : Dev nD) (t : Fin cfg0.N) (i : Fin 8) (j : ℕ) (hj : j < 8) (ht : t.val = 8 * i.val + j)
    (p : Fin 2048) (q : Fin 128) :
    ∑ r : Fin 2048, adjTile m c t (ix2 p r) * featTile m c t (ix2 r q)
      = ∑ r : Fin 2048, adjArr m c (ix2 (tileRow i p) (blockCol j hj r)) * featArr m c (ix2 (blockCol j hj r) q) :=
  Finset.sum_congr rfl fun r _ => by rw [adjTile_apply m c t i j hj ht p r, featTile_apply m c t i j hj ht r q]

/-- After step `j` of row tile `i` the accumulator at (p, q) is the sum over the first j + 1 blocks. -/
theorem acc_eq (c : Dev nD) (i : Fin 8) : ∀ (j : ℕ) (hj : j < 8) (t : Fin cfg0.N) (ht : t.val = 8 * i.val + j)
    (p : Fin 2048) (q : Fin 128),
    accAfter m c t.val t.isLt (ix2 p q) = partialAgg (adjArr m c) (featArr m c) (tileRow i p) q (j + 1) hj
  | 0, hj, t, ht, p, q => by
    have h0 : t.val % 8 = 0 := by omega
    rw [acc_at_first m c t h0]
    refine (Payloads.step_apply (adjTile m c t) (featTile m c t) _ p q).trans ?_
    rw [Payloads.zero_apply, partialAgg_succ, partialAgg_zero, step_products m c t i 0 hj ht p q]
  | j + 1, hj, t, ht, p, q => by
    have h0 : ¬t.val % 8 = 0 := by omega
    rw [acc_at_later m c t h0]
    refine (Payloads.step_apply (adjTile m c t) (featTile m c t) _ p q).trans ?_
    rw [partialAgg_succ, step_products m c t i (j + 1) hj ht p q]
    exact congrArg (· + _) (acc_eq c i j (Nat.lt_of_succ_lt hj) ⟨t.val - 1, Nat.lt_of_le_of_lt (Nat.sub_le _ _) t.isLt⟩
      (by dsimp only; omega) p q)

/-! ## The output tile: the layer function on its rows -/

/-- After the last step of row tile `i` the residual mix on the tile is M on rows 2048·i + p. -/
theorem mixTile_eq (c : Dev nD) (t : Fin cfg0.N) (i : Fin 8) (ht : t.val = 8 * i.val + 7) (p : Fin 2048) (j : Fin 128) :
    Payloads.mixTile (accAfter m c t.val t.isLt) (initTile m c t) p j
      = mixed (adjArr m c) (featArr m c) (initArr m c) (tileRow i p) j := by
  unfold Payloads.mixTile mixed
  rw [initTile_apply m c t i 7 (by omega) ht p j]
  exact congrArg (fun z => wAgg * z + _)
    ((acc_eq m c i 7 (by omega) t ht p j).trans (partialAgg_all (adjArr m c) (featArr m c) (tileRow i p) j))

/-- The output tile written at the last step of row tile `i`, at (p, q), is the layer function at (2048·i + p, q). -/
theorem out_tile_apply (c : Dev nD) (t : Fin cfg0.N) (i : Fin 8) (ht : t.val = 8 * i.val + 7) (p : Fin 2048) (q : Fin 128) :
    outAfter m c t.val t.isLt (ix2 p q)
      = layer (adjArr m c) (featArr m c) (initArr m c) (weightArr m c) (ix2 (tileRow i p) q) := by
  have h1 : t.val % 8 = 7 := by omega
  rw [out_at_last m c t h1, layer_apply]
  refine (Payloads.close_apply (accAfter m c t.val t.isLt) (initTile m c t) (weightTile m c t) p q).trans ?_
  simp only [mixTile_eq m c t i ht, weightTile_apply m c t]

/-- The same at an entry `y` of the tile: the layer function where the tile's rectangle puts `y`. -/
theorem out_tile_at (c : Dev nD) (t : Fin cfg0.N) (h1 : t.val % 8 = 7) (y : S2048x128.Idx) :
    outAfter m c t.val t.isLt y
      = layer (adjArr m c) (featArr m c) (initArr m c) (weightArr m c) (((cfg0.win 4).blk t).view.emb y) := by
  have hN : t.val < 64 := lt_of_lt_of_eq t.isLt (show cfg0.N = 64 from N_0)
  obtain ⟨p, q, rfl⟩ : ∃ (p : Fin 2048) (q : Fin 128), y = ix2 p q := ⟨y 0, y 1, eq_ix2 y⟩
  obtain ⟨-, -, -, -, -, -, -, -, e8, e9⟩ := tile_positions t
  refine (out_tile_apply m c t ⟨t.val / 8, by omega⟩ (by dsimp only; omega) p q).trans (congrArg _ ?_)
  funext a
  apply Fin.ext
  match a with
  | ⟨0, _⟩ => show 2048 * (t.val / 8) + p.val = win0_4.index t (0 : Fin 2) * 2048 + 1 * p.val; rw [e8]; omega
  | ⟨1, _⟩ => show q.val = win0_4.index t (1 : Fin 2) * 128 + 1 * q.val; rw [e9]; omega

/-! ## The result array -/

/-- The layer function of the argument arrays, as contents of the result array. -/
abbrev result (c : Dev nD) : Buf (Elt Ideal) ((c : Thread nD τ).loc main_v0) :=
  layer (adjArr m c) (featArr m c) (initArr m c) (weightArr m c)

/-- What a last step writes back is its tile of the layer function. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  rw [Value.flushed4]
  funext y
  rw [View.read_apply]
  exact out_tile_at m c t h1 y

/-- An entry of the array lies in point `t`'s output tile iff each coordinate lies in the tile's range. -/
theorem mem_tile (t : Fin cfg0.N) (i : S16384x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v0).slice (win0_4.rect t)).set ↔ _
  rw [View.set_slice_whole, Rect.mem_set_unit]
  exact Iff.rfl

/-- Row `n` lies in the tile written at the last step of row tile `n / 2048`: the eight tiles cover the array, so the
    array ends holding the layer function. -/
theorem final (c : Dev nD) : (dats m 0 c).arrAt 4 cfg0.N = result m c :=
  (dats m 0 c).arrAt_eq_of_cover 4 (result m c) (flushed_eq m c) fun i => by
    have hi0 : (i 0).val < 16384 := (i 0).isLt
    have hi1 : (i 1).val < 128 := (i 1).isLt
    have hlt : 8 * ((i 0).val / 2048) + 7 < cfg0.N := by rw [show cfg0.N = 64 from N_0]; omega
    obtain ⟨-, -, -, -, -, -, -, -, e8, e9⟩ := tile_positions ⟨8 * ((i 0).val / 2048) + 7, hlt⟩
    refine ⟨⟨8 * ((i 0).val / 2048) + 7, hlt⟩, (flush0_4 _).mpr (by dsimp only; omega), ?_⟩
    rw [mem_tile]
    intro a
    match a with
    | ⟨0, _⟩ =>
      show win0_4.index ⟨8 * ((i 0).val / 2048) + 7, hlt⟩ (0 : Fin 2) * 2048 ≤ (i 0).val ∧ (i 0).val < win0_4.index ⟨8 * ((i 0).val / 2048) + 7, hlt⟩ (0 : Fin 2) * 2048 + 2048
      rw [e8]; dsimp only; omega
    | ⟨1, _⟩ =>
      show win0_4.index ⟨8 * ((i 0).val / 2048) + 7, hlt⟩ (1 : Fin 2) * 128 ≤ (i 1).val ∧ (i 1).val < win0_4.index ⟨8 * ((i 0).val / 2048) + 7, hlt⟩ (1 : Fin 2) * 128 + 128
      rw [e9]; omega

/-- The kernel's run: the result array ends at the layer function of the argument arrays, which end unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg2)) (m ((c : Thread nD τ).loc main_arg0))
            (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LayerValue

end
-- ==== Proof.RefLayer.lean ====
/-
  The reference program computes the layer function: its sixteen operations, read at an entry (p, q), are
  H = Σ_k A(p, k)·X(k, q), M = a·H + b·X0, out = g·M + d·Σ_j M(p, j)·W(j, q) — the same four scalars, the same order
  of operands.
-/
import proofs.«176173_j19439021981955_1_alg».proof.Proof.Gen.ReferenceIdeal.Read
import proofs.«176173_j19439021981955_1_alg».proof.Proof.Spec

noncomputable section

namespace Cert.ReferenceIdeal.RefLayer

open Cert.ReferenceIdeal Cert.ReferenceIdeal.Read Idealize.ShloMosaic Idealize.ShloMosaic.ValueIdx Cert.ResidualLayer

/-- The first product reads A at (p, k) … -/
theorem lidx_agg (p : Fin 16384) (q : Fin 128) (k : Fin 16384) : lidx_main_v0 (ix2 p q) k = ix2 p k :=
  funext fun a => by match a with | ⟨0, _⟩ => rfl | ⟨1, _⟩ => rfl
/-- … and X at (k, q). -/
theorem ridx_agg (p : Fin 16384) (q : Fin 128) (k : Fin 16384) : ridx_main_v0 (ix2 p q) k = ix2 k q :=
  funext fun a => by match a with | ⟨0, _⟩ => rfl | ⟨1, _⟩ => rfl
/-- The second product reads M at (p, j) … -/
theorem lidx_mix (p : Fin 16384) (q : Fin 128) (j : Fin 128) : lidx_main_v8 (ix2 p q) j = ix2 p j :=
  funext fun a => by match a with | ⟨0, _⟩ => rfl | ⟨1, _⟩ => rfl
/-- … and W at (j, q). -/
theorem ridx_mix (p : Fin 16384) (q : Fin 128) (j : Fin 128) : ridx_main_v8 (ix2 p q) j = ix2 j q :=
  funext fun a => by match a with | ⟨0, _⟩ => rfl | ⟨1, _⟩ => rfl

/-- The reference's residual mix is M. -/
theorem mixed_eq (x x0 : FVec Ideal SFeat .f32) (adj : FVec Ideal SAdj .f32) (p : Fin 16384) (q : Fin 128) :
    val_main_v5 (F := Ideal) x x0 adj (ix2 p q) = mixed adj x x0 p q := by
  rw [val_main_v5_apply, val_main_v2_apply, val_main_v4_apply, val_main_v1_apply, val_main_v3_apply,
    val_main_cst_apply, val_main_cst_0_apply, val_main_v0_apply]
  simp only [lidx_agg, ridx_agg]
  rfl

/-- The reference's result is the layer function of its four arguments. -/
theorem result_eq (x x0 : FVec Ideal SFeat .f32) (adj : FVec Ideal SAdj .f32) (w : FVec Ideal SWeight .f32) :
    val_main_v11 (F := Ideal) x x0 adj w = layer adj x x0 w := by
  funext i
  obtain ⟨p, q, rfl⟩ : ∃ (p : Fin 16384) (q : Fin 128), i = ix2 p q := ⟨i 0, i 1, eq_ix2 i⟩
  rw [val_main_v11_apply, val_main_v7_apply, val_main_v10_apply, val_main_v6_apply, val_main_v9_apply,
    val_main_cst_1_apply, val_main_cst_2_apply, val_main_v8_apply]
  simp only [lidx_mix, ridx_mix, mixed_eq]
  rfl

end Cert.ReferenceIdeal.RefLayer

end
-- ==== Proof.lean ====
/-
  The kernel — a 16384 x 16384 adjacency streamed tile by tile against the features, the products accumulated over
  eight reduction steps per row tile, then a residual mix with the initial features and a small product with the
  weights — computes, over the extended reals, the same function of its four arrays as the reference's direct
  formula  out = g·M + d·(M·W),  M = a·(A·X) + b·X0.

  Both sides use the same four scalars in the same places and multiply in the same order; the one difference is that
  the kernel sums the 16384 products of A·X as eight blocks of 2048 added to a running total that starts at zero,
  where the reference sums them at once. Addition of extended reals is commutative and associative, so the two sums
  agree, with no appeal to finiteness of the inputs. The changes of float format on the kernel's product operands are
  the identity over the extended reals.

  Proof/Spec.lean states the layer function and the block-by-block partial sums; Proof/RefLayer.lean shows the
  reference computes it; Proof/CaseValues.lean and Proof/PointValues.lean say what each grid point leaves in the
  accumulator and the output tile; Proof/Payloads.lean reads that arithmetic at an entry; Proof/LayerValue.lean
  carries the partial sums through the eight steps and assembles the result array. The three frame claims are the
  generated frames (the reference's is its run with the result dropped); the idealization rewrote nothing.
-/
import proofs.«176173_j19439021981955_1_alg».proof.Defs
import proofs.«176173_j19439021981955_1_alg».proof.Proof.Gen.Kernel
import proofs.«176173_j19439021981955_1_alg».proof.Proof.Gen.Kernel.Skeleton
import proofs.«176173_j19439021981955_1_alg».proof.Proof.Gen.Kernel.Launch
import proofs.«176173_j19439021981955_1_alg».proof.Proof.Gen.Kernel.Points
import proofs.«176173_j19439021981955_1_alg».proof.Proof.Gen.Kernel.Frame
import proofs.«176173_j19439021981955_1_alg».proof.Proof.Gen.KernelIdeal
import proofs.«176173_j19439021981955_1_alg».proof.Proof.Gen.KernelIdeal.Skeleton
import proofs.«176173_j19439021981955_1_alg».proof.Proof.Gen.KernelIdeal.Launch
import proofs.«176173_j19439021981955_1_alg».proof.Proof.Gen.KernelIdeal.Points
import proofs.«176173_j19439021981955_1_alg».proof.Proof.Gen.KernelIdeal.Frame
import proofs.«176173_j19439021981955_1_alg».proof.Proof.Gen.KernelIdeal.Value
import proofs.«176173_j19439021981955_1_alg».proof.Proof.Gen.ReferenceIdeal
import proofs.«176173_j19439021981955_1_alg».proof.Proof.Gen.ReferenceIdeal.Run
import proofs.«176173_j19439021981955_1_alg».proof.Proof.Gen.ReferenceIdeal.Read
import proofs.«176173_j19439021981955_1_alg».proof.Proof.Gen.Pre_finite_inputs
import proofs.«176173_j19439021981955_1_alg».proof.Proof.LayerValue
import proofs.«176173_j19439021981955_1_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it computes dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the four arguments both programs end with the layer function of those arguments in
    their result arrays: the kernel by its eight-step accumulation, the reference by its direct formula. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
